-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part1 {F : FTy → Type} [FloatOps F] (main_arg4 : FVec F S4096x16 .f32) (main_v13 : IVec S_ 1) (main_v16 : IVec S16x4096 1) : IVec S_ 1 :=
  let main_c_5 : IVec S_ 1 := constantI S_ 1 1#1
  let main_v17 : IVec S_ 1 := (fun x v => Host.reduce IntOp.andi x v reducesTo_S16x4096_S_d0_1 h_S_) main_v16 main_c_5
  let main_v18 : IVec S_ 1 := andi main_v13 main_v17
  let main_v19 : FVec F S4096x16 .f32 := Host.absf main_arg4
  let main_cst_6 : FVec F S_ .f32 := constant S_ .f32 0x7F800000#32
  let main_v20 : FVec F S4096x16 .f32 := broadcastInDim S4096x16 ![] bcast_S_S4096x16 main_cst_6
  let main_v21 : IVec S4096x16 1 := cmpf .olt main_v19 main_v20
  let main_c_7 : IVec S_ 1 := constantI S_ 1 1#1
  let main_v22 : IVec S_ 1 := (fun x v => Host.reduce IntOp.andi x v reducesTo_S4096x16_S_d0_1 h_S_) main_v21 main_c_7
  let main_v23 : IVec S_ 1 := andi main_v18 main_v22
  main_v23

def fn {F : FTy → Type} [FloatOps F] (main_arg0 : FVec F S4x2048x4096 .f32) (main_arg1 : FVec F S4096x4096 .f32) (main_arg2 : FVec F S4096 .f32) (main_arg3 : FVec F S16x4096 .f32) (main_arg4 : FVec F S4096x16 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S16x4096 .f32 := Host.absf main_arg3
  let main_cst_4 : FVec F S_ .f32 := constant S_ .f32 0x7F800000#32
  let main_v15 : FVec F S16x4096 .f32 := broadcastInDim S16x4096 ![] bcast_S_S16x4096 main_cst_4
  let main_v16 : IVec S16x4096 1 := cmpf .olt main_v14 main_v15
  fn_part1 (F := F) main_arg4 main_v13 main_v16
-- ==== Kernel.lean ====
abbrev S4x2048x4096 : Shape := ⟨3, ![4, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S8192x4096 : Shape := ⟨2, ![8192, 4096]⟩
abbrev S1x4096 : Shape := ⟨2, ![1, 4096]⟩
abbrev S1024x2048 : Shape := ⟨2, ![1024, 2048]⟩
abbrev S2048x1024 : Shape := ⟨2, ![2048, 1024]⟩
abbrev S2048x16 : Shape := ⟨2, ![2048, 16]⟩
abbrev S16x1024 : Shape := ⟨2, ![16, 1024]⟩
abbrev S1x1024 : Shape := ⟨2, ![1, 1024]⟩
abbrev S1024x1024 : Shape := ⟨2, ![1024, 1024]⟩
abbrev S1024x16 : Shape := ⟨2, ![1024, 16]⟩

abbrev nBuf : Space → Nat
  | .hbm => 16
  | .vmem => 14
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S8192x4096, .f32⟩
  | .hbm, ⟨6, _⟩ => ⟨S8192x4096, .bf16⟩
  | .hbm, ⟨7, _⟩ => ⟨S4096x4096, .f32⟩
  | .hbm, ⟨8, _⟩ => ⟨S4096x4096, .bf16⟩
  | .hbm, ⟨9, _⟩ => ⟨S4096x16, .f32⟩
  | .hbm, ⟨10, _⟩ => ⟨S4096x16, .bf16⟩
  | .hbm, ⟨11, _⟩ => ⟨S16x4096, .f32⟩
  | .hbm, ⟨12, _⟩ => ⟨S16x4096, .bf16⟩
  | .hbm, ⟨13, _⟩ => ⟨S1x4096, .f32⟩
  | .hbm, ⟨14, _⟩ => ⟨S8192x4096, .f32⟩
  | .hbm, ⟨15, _⟩ => ⟨S4x2048x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x16, .bf16⟩
  | .local _ .vmem, ⟨5, _⟩ => ⟨S2048x16, .bf16⟩
  | .local _ .vmem, ⟨6, _⟩ => ⟨S16x1024, .bf16⟩
  | .local _ .vmem, ⟨7, _⟩ => ⟨S16x1024, .bf16⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x16, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 2], ![false, false, false]⟩

def k0_cond2 (i : grid0.Coords) : BitVec 1 :=
  let arg2 : BitVec 32 := BitVec.ofNat 32 (i 2).val
  let c1_i32 : BitVec 32 := 1#32
  let v23 : BitVec 1 := Scalar.cmpi .eq arg2 c1_i32
  let v24 : BitVec 32 := Scalar.extui v23
  let c0_i32_17 : BitVec 32 := 0#32
  let v25 : BitVec 1 := Scalar.cmpi .ne v24 c0_i32_17
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x16 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S4x2048x4096_S8192x4096 : S4x2048x4096.ShapeCasts S8192x4096
  bitsLt_bf16_f32 : FTy.bits .bf16 < FTy.bits .f32
  transposes_S4096x4096_S4096x4096_1_0 : S4096x4096.Transposes [1, 0] S4096x4096
  transposes_S16x4096_S4096x16_1_0 : S16x4096.Transposes [1, 0] S4096x16
  transposes_S4096x16_S16x4096_1_0 : S4096x16.Transposes [1, 0] S16x4096
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x16_S2048x16_0_0 : ∀ a, (![0, 0] : Fin 2 → Nat) a + S2048x16.size a ≤ S2048x16.size a
  h_S2048x16 : 0 < S2048x16.numel
  shapeCasts_S2048x16_S2048x16 : S2048x16.ShapeCasts S2048x16
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x4096_S4x2048x4096 : S8192x4096.ShapeCasts S4x2048x4096
  dot_S1024x2048_S2048x1024_S1024x1024_1_0_0_1_n_n_wf : DotDims.WF S1024x2048 S2048x1024 S1024x1024 [1] [0] [0] [1] [] []
  dot_S1024x2048_S2048x16_S1024x16_1_0_0_1_n_n_wf : DotDims.WF S1024x2048 S2048x16 S1024x16 [1] [0] [0] [1] [] []
  dot_S1024x16_S16x1024_S1024x1024_1_0_0_1_n_n_wf : DotDims.WF S1024x16 S16x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x4096.size a
  hwx0_0 : ∀ i : grid0.Coords, EltTy.bits .bf16 = 32 ∨ (Rect.block (s := S8192x4096) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S4096x4096.size a
  hwx0_1 : ∀ i : grid0.Coords, EltTy.bits .bf16 = 32 ∨ (Rect.block (s := S4096x4096) S2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x16.size a ≤ S4096x16.size a
  hwx0_2 : ∀ i : grid0.Coords, EltTy.bits .bf16 = 32 ∨ (Rect.block (s := S4096x16) S2048x16.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x1024.size a ≤ S16x4096.size a
  hwx0_3 : ∀ i : grid0.Coords, EltTy.bits .bf16 = 32 ∨ (Rect.block (s := S16x4096) S16x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S8192x4096.size a
  hwx0_5 : ∀ i : grid0.Coords, EltTy.bits .f32 = 32 ∨ (Rect.block (s := S8192x4096) S1024x1024.size (cc0_transform_5 i) (hinb0_5 i)).WholeWords (EltTy.packing .f32)

variable [Facts₀]

def dot_S1024x2048_S2048x1024_S1024x1024_1_0_0_1_n_n : DotDims S1024x2048 S2048x1024 S1024x1024 where
  lhsContracting := [1]
  rhsContracting := [0]
  lhsNonContracting := [0]
  rhsNonContracting := [1]
  lhsBatch := []
  rhsBatch := []
  wf := dot_S1024x2048_S2048x1024_S1024x1024_1_0_0_1_n_n_wf
def dot_S1024x2048_S2048x16_S1024x16_1_0_0_1_n_n : DotDims S1024x2048 S2048x16 S1024x16 where
  lhsContracting := [1]
  rhsContracting := [0]
  lhsNonContracting := [0]
  rhsNonContracting := [1]
  lhsBatch := []
  rhsBatch := []
  wf := dot_S1024x2048_S2048x16_S1024x16_1_0_0_1_n_n_wf
def dot_S1024x16_S16x1024_S1024x1024_1_0_0_1_n_n : DotDims S1024x16 S16x1024 S1024x1024 where
  lhsContracting := [1]
  rhsContracting := [0]
  lhsNonContracting := [0]
  rhsNonContracting := [1]
  lhsBatch := []
  rhsBatch := []
  wf := dot_S1024x16_S16x1024_S1024x1024_1_0_0_1_n_n_wf

abbrev win0_0 : Pipeline.Window sig grid0 :=
  Pipeline.Window.ofSpec (Memref.whole main_v1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S2048x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S16x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S1x1x4096 : Shape := ⟨3, ![1, 1, 4096]⟩
abbrev S4x2048x16 : Shape := ⟨3, ![4, 2048, 16]⟩

abbrev nBuf : Space → Nat
  | .hbm => 12
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S4x2048x4096, .f32⟩
  | .hbm, ⟨6, _⟩ => ⟨S1x1x4096, .f32⟩
  | .hbm, ⟨7, _⟩ => ⟨S4x2048x4096, .f32⟩
  | .hbm, ⟨8, _⟩ => ⟨S4x2048x4096, .f32⟩
  | .hbm, ⟨9, _⟩ => ⟨S4x2048x16, .f32⟩
  | .hbm, ⟨10, _⟩ => ⟨S4x2048x4096, .f32⟩
  | .hbm, ⟨11, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []
  dot_S4x2048x4096_S16x4096_S4x2048x16_2_1_01_0_n_n_wf : DotDims.WF S4x2048x4096 S16x4096 S4x2048x16 [2] [1] [0, 1] [0] [] []
  dot_S4x2048x16_S4096x16_S4x2048x4096_2_1_01_0_n_n_wf : DotDims.WF S4x2048x16 S4096x16 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S16x4096_S4x2048x16_2_1_01_0_n_n : DotDims S4x2048x4096 S16x4096 S4x2048x16 where
  lhsContracting := [2]
  rhsContracting := [1]
  lhsNonContracting := [0, 1]
  rhsNonContracting := [0]
  lhsBatch := []
  rhsBatch := []
  wf := dot_S4x2048x4096_S16x4096_S4x2048x16_2_1_01_0_n_n_wf
def dot_S4x2048x16_S4096x16_S4x2048x4096_2_1_01_0_n_n : DotDims S4x2048x16 S4096x16 S4x2048x4096 where
  lhsContracting := [2]
  rhsContracting := [1]
  lhsNonContracting := [0, 1]
  rhsNonContracting := [0]
  lhsBatch := []
  rhsBatch := []
  wf := dot_S4x2048x16_S4096x16_S4x2048x4096_2_1_01_0_n_n_wf

class Facts : Prop extends Facts₀ where

variable [Facts]
-- ==== Proof.Steps.lean ====
import proofs.«112861_j63196148793993_1_alg».proof.Proof.Gen.KernelIdeal.Frame
import Idealize.ShloMosaic.Lib.Pipeline.Value
import Idealize.ShloMosaic.Lib.Tactic

/-!
# What one grid point leaves in the two accumulators and in the output block

The grid is (row tile, column tile, half of the feature axis), the half innermost. At a first-half point the body
zeroes both accumulators and adds the half's products; at a second-half point it adds that half's products to what
the first half left, and then writes the output block: dense accumulator plus low-rank accumulator times the up
projection's block, plus the bias row. Each is the body's arithmetic (the payload terms) of the blocks staged at the
point — for every float instance.
-/

set_option maxRecDepth 16384

noncomputable section

namespace Cert.KernelIdeal.Steps

open Idealize.ShloMosaic Idealize.ShloMosaic.TcCoe Idealize.SL.Sem Idealize.ShloMosaic.Tactic
open Cert.KernelIdeal Cert.KernelIdeal.Gen

variable {F : FTy → Type} [FloatOps F]

theorem hz : (![0, 0] : Fin 2 → Nat) = fun _ => 0 := funext fun a => by fin_cases a <;> rfl

section
variable (c : Dev nD) (i : grid0.Coords)
  (arg3 : Memref sig .tc .vmem S1024x2048 .bf16) (harg3 : arg3.IsWhole)
  (arg4 : Memref sig .tc .vmem S2048x1024 .bf16) (harg4 : arg4.IsWhole)
  (arg5 : Memref sig .tc .vmem S2048x16 .bf16) (harg5 : arg5.IsWhole)
  (arg6 : Memref sig .tc .vmem S16x1024 .bf16) (harg6 : arg6.IsWhole)
  (arg7 : Memref sig .tc .vmem S1x1024 .f32) (harg7 : arg7.IsWhole)
  (arg8 : Memref sig .tc .vmem S1024x1024 .f32) (harg8 : arg8.IsWhole)
  (arg9 : Memref sig .tc .vmem S1024x1024 .f32) (harg9 : arg9.IsWhole)
  (arg10 : Memref sig .tc .vmem S1024x16 .f32) (harg10 : arg10.IsWhole)
  (x0 : Vec F S1024x2048 .bf16) (x1 : Vec F S2048x1024 .bf16) (x2 : Vec F S2048x16 .bf16)
  (x3 : Vec F S16x1024 .bf16) (x4 : Vec F S1x1024 .f32)

/-- A first-half point leaves the dense accumulator at zero plus the half's products. -/
theorem first_dense (hc0 : cond0_0 i) (hc1 : ¬cond0_1 i) :
    sout0_A_0 c i arg3 harg3 arg4 harg4 arg5 harg5 arg6 harg6 arg7 harg7 arg8 harg8 arg9 harg9 arg10 harg10 hc0 hc1 x0 x1 x2 x3 x4
      = k0_pay3 (k0_pay1 (F := F)) x0 x1 := by
  unfold sout0_A_0
  rw [View.read_writes_eq_canon _ _ _ (scover0_A_0 c i arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, View.ld_unit_zero (S := S1024x2048) hz,
    View.ld_unit_zero (S := S2048x1024) hz]

/-- A first-half point leaves the low-rank accumulator at zero plus the half's products. -/
theorem first_lowrank (hc0 : cond0_0 i) (hc1 : ¬cond0_1 i) :
    sout0_A_1 c i arg3 harg3 arg4 harg4 arg5 harg5 arg6 harg6 arg7 harg7 arg8 harg8 arg9 harg9 arg10 harg10 hc0 hc1 x0 x1 x2 x3 x4
      = k0_pay4 (k0_pay2 (F := F)) x0 x2 := by
  unfold sout0_A_1
  rw [View.read_writes_eq_canon _ _ _ (scover0_A_1 c i arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1024x16) hz, View.readCov_unit_zero (S := S1024x16) _ hz]
  simp only [View.readAt_eq_ld, harg3.read_unread, harg5.read_unread, View.ld_unit_zero (S := S1024x2048) hz,
    View.ld_unit_zero (S := S2048x16) hz]

variable (xs0 : Vec F S1024x1024 .f32) (xs1 : Vec F S1024x16 .f32)

/-- A second-half point adds its half's products to the dense accumulator it found. -/
theorem second_dense (hc0 : ¬cond0_0 i) (hc1 : cond0_1 i) :
    sout0_B_0 c i arg3 harg3 arg4 harg4 arg5 harg5 arg6 harg6 arg7 harg7 arg8 harg8 arg9 harg9 arg10 harg10 hc0 hc1 x0 x1 x2 x3 x4 xs0 xs1
      = k0_pay3 xs0 x0 x1 := by
  unfold sout0_B_0
  rw [View.read_writes_eq_canon _ _ _ (scover0_B_0 c i arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  rw [View.canon_unit_zero hz]
  simp only [View.readAt_eq_ld, harg3.read_unread, harg4.read_unread, harg9.read_unread, View.ld_unit_zero (S := S1024x2048) hz,
    View.ld_unit_zero (S := S2048x1024) hz, View.ld_unit_zero (S := S1024x1024) hz]

/-- A second-half point adds its half's products to the low-rank accumulator it found. -/
theorem second_lowrank (hc0 : ¬cond0_0 i) (hc1 : cond0_1 i) :
    sout0_B_1 c i arg3 harg3 arg4 harg4 arg5 harg5 arg6 harg6 arg7 harg7 arg8 harg8 arg9 harg9 arg10 harg10 hc0 hc1 x0 x1 x2 x3 x4 xs0 xs1
      = k0_pay4 xs1 x0 x2 := by
  unfold sout0_B_1
  rw [View.read_writes_eq_canon _ _ _ (scover0_B_1 c i arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  rw [View.canon_unit_zero hz]
  simp only [View.readAt_eq_ld, harg3.read_unread, harg5.read_unread, harg10.read_unread, View.ld_unit_zero (S := S1024x2048) hz,
    View.ld_unit_zero (S := S2048x16) hz, View.ld_unit_zero (S := S1024x16) hz]

/-- A second-half point writes the output block from the two accumulators as it has just updated them, the up
    projection's block and the bias row. -/
theorem second_out (hc0 : ¬cond0_0 i) (hc1 : cond0_1 i) :
    out0_B_5 c i arg3 harg3 arg4 harg4 arg5 harg5 arg6 harg6 arg7 harg7 arg8 harg8 arg9 harg9 arg10 harg10 hc0 hc1 x0 x1 x2 x3 x4 xs0 xs1
      = k0_pay5 (k0_pay4 xs1 x0 x2) x3 (k0_pay3 xs0 x0 x1) x4 := by
  unfold out0_B_5
  rw [View.read_writes_eq_canon _ _ _ (cover0_B_5 c i arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  rw [View.canon_unit_zero hz]
  simp only [View.readAt_eq_ld, harg3.read_unread, harg4.read_unread, harg5.read_unread, harg6.read_unread, harg7.read_unread,
    harg9.read_unread, harg10.read_unread, View.readCov_unit_zero (S := S1024x1024) _ hz, View.readCov_unit_zero (S := S1024x16) _ hz,
    View.ld_unit_zero (S := S1024x2048) hz, View.ld_unit_zero (S := S2048x1024) hz, View.ld_unit_zero (S := S2048x16) hz,
    View.ld_unit_zero (S := S16x1024) hz, View.ld_unit_zero (S := S1x1024) hz, View.ld_unit_zero (S := S1024x1024) hz,
    View.ld_unit_zero (S := S1024x16) hz]

end

/-! ## The output block a second-half point writes, from the blocks of both halves -/

section
variable (m : (ℓ : Loc nD τ sig) → Buf (Elt F) ℓ)

/-- The blocks staged at point `t`: activations, dense weight, down projection, up projection, bias row. -/
abbrev xblk (c : Dev nD) (t : Fin cfg0.N) : Vec F S1024x2048 .bf16 := iblk m c 0 t
abbrev wblk (c : Dev nD) (t : Fin cfg0.N) : Vec F S2048x1024 .bf16 := iblk m c 1 t
abbrev ablk (c : Dev nD) (t : Fin cfg0.N) : Vec F S2048x16 .bf16 := iblk m c 2 t
abbrev bblk (c : Dev nD) (t : Fin cfg0.N) : Vec F S16x1024 .bf16 := iblk m c 3 t
abbrev biasblk (c : Dev nD) (t : Fin cfg0.N) : Vec F S1x1024 .f32 := iblk m c 4 t

/-- After a first-half point the dense accumulator holds zero plus that half's products. -/
theorem dense_at_first (c : Dev nD) (t : Fin cfg0.N) (h0 : t.val % 2 = 0) :
    (outsAt0 m c t.val t.isLt).2.1 = k0_pay3 (k0_pay1 (F := F)) (xblk m c t) (wblk m c t) := by
  have h1 : ¬t.val % 2 = 1 := by omega
  rw [outsAt0_A m c t h0 h1]
  dsimp only
  exact first_dense c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t)
    ((hcond0_0 t).mpr h0) (fun h => h1 ((hcond0_1 t).mp h))

/-- After a first-half point the low-rank accumulator holds zero plus that half's products. -/
theorem lowrank_at_first (c : Dev nD) (t : Fin cfg0.N) (h0 : t.val % 2 = 0) :
    (outsAt0 m c t.val t.isLt).2.2 = k0_pay4 (k0_pay2 (F := F)) (xblk m c t) (ablk m c t) := by
  have h1 : ¬t.val % 2 = 1 := by omega
  rw [outsAt0_A m c t h0 h1]
  dsimp only
  exact first_lowrank c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t)
    ((hcond0_0 t).mpr h0) (fun h => h1 ((hcond0_1 t).mp h))

/-- After a second-half point the output's staging buffer holds the body's output arithmetic of what the point
    before left in the two accumulators and of this point's blocks. -/
theorem out_at_second_step (c : Dev nD) (t : Fin cfg0.N) (h1 : t.val % 2 = 1) :
    (outsAt0 m c t.val t.isLt).1
      = k0_pay5 (k0_pay4 (outsAt0 m c (t.val - 1) (Nat.lt_of_le_of_lt (Nat.sub_le _ _) t.isLt)).2.2 (xblk m c t) (ablk m c t))
          (bblk m c t)
          (k0_pay3 (outsAt0 m c (t.val - 1) (Nat.lt_of_le_of_lt (Nat.sub_le _ _) t.isLt)).2.1 (xblk m c t) (wblk m c t))
          (biasblk m c t) := by
  have h0 : ¬t.val % 2 = 0 := by omega
  rw [outsAt0_B m c t h0 h1]
  dsimp only
  exact second_out c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t)
    (outsAt0 m c (t.val - 1) (Nat.lt_of_le_of_lt (Nat.sub_le _ _) t.isLt)).2.1
    (outsAt0 m c (t.val - 1) (Nat.lt_of_le_of_lt (Nat.sub_le _ _) t.isLt)).2.2
    (fun h => h0 ((hcond0_0 t).mp h)) ((hcond0_1 t).mpr h1)

end

end Cert.KernelIdeal.Steps

end
-- ==== Proof.LibContract.lean ====
import Idealize.ShloMosaic.PureOps.Ideal.Laws
import Idealize.ShloMosaic.Lib.ValueIdx

/-!
# The plain contraction `[M, K] × [K, N]` read at an entry, on the extended reals

`DotDims.plain M K N` has the fields of every printed `…_1_0_0_1_n_n` record of rank-2 operands (contract the left
operand's axis 1 with the right operand's axis 0, no batch axes). Over it the host's `dot_general` and a kernel's
`tpu.matmul` into the zero splat are both, at entry `(p, q)`, the sum over `k` of `a[p, k] · b[k, q]`.
-/

noncomputable section

namespace Cert.LibDense

open Idealize.ShloMosaic Idealize.ShloMosaic.ValueIdx

/-! ## The operand indices of the plain contraction, axis by axis

At result index `j` and contraction index `c` the left operand is read at `(j 0, c)` and the right one at `(c, j 1)`:
a kept axis reads the result index at its place, the contracted axis reads the one coordinate of `c`. -/

/-- The left operand's row is the result's row. -/
theorem plain_lhs_0 (M K N : Nat) (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction index's coordinate. -/
theorem plain_lhs_1 (M K N : Nat) (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row is the contraction index's coordinate. -/
theorem plain_rhs_0 (M K N : Nat) (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column is the result's column. -/
theorem plain_rhs_1 (M K N : Nat) (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the one-axis contraction index, re-indexed by its coordinate `k : Fin K` and with both operand
    indices read off: `∑ k, a[p, k] · b[k, q]`. -/
theorem plain_sum (M K N : Nat) {φ₁ φ₂ : FTy} (a : FVec Ideal (⟨2, ![M, K]⟩ : Shape) φ₁)
    (b : FVec Ideal (⟨2, ![K, N]⟩ : Shape) φ₂) (p : Fin M) (q : Fin N) :
    (∑ c : (DotDims.plain M K N).contr.Idx,
        a ((DotDims.plain M K N).lhsIdx (ix2 p q) c) * b ((DotDims.plain M K N).rhsIdx (ix2 p q) c))
      = ∑ k : Fin K, a (ix2 p k) * b (ix2 k q) := by
  rw [← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx (ix2 p q) ((ValueIdx.contrEquiv1 (DotDims.plain M K N) K rfl rfl).symm k)
      = ix2 p k := funext fun x => Fin.ext (by
    match x with
    | ⟨0, _⟩ => exact plain_lhs_0 M K N _ _
    | ⟨1, _⟩ => exact (plain_lhs_1 M K N _ _).trans hk)
  have er : (DotDims.plain M K N).rhsIdx (ix2 p q) ((ValueIdx.contrEquiv1 (DotDims.plain M K N) K rfl rfl).symm k)
      = ix2 k q := funext fun x => Fin.ext (by
    match x with
    | ⟨0, _⟩ => exact (plain_rhs_0 M K N _ _).trans hk
    | ⟨1, _⟩ => exact plain_rhs_1 M K N _ _)
  rw [el, er]

/-! ## The contraction read at an entry -/

/-- The host's `dot_general` over the plain contraction, at entry `(p, q)`: `∑ k, a[p, k] · b[k, q]`. -/
theorem dotGeneral_plain_apply (M K N : Nat) {φ₁ φ₂ : FTy} (prec : Option ContractPrecision)
    (a : FVec Ideal (⟨2, ![M, K]⟩ : Shape) φ₁) (b : FVec Ideal (⟨2, ![K, N]⟩ : Shape) φ₂) (p : Fin M) (q : Fin N) :
    Host.dotGeneral (DotDims.plain M K N) prec a b (ix2 p q) = ∑ k : Fin K, a (ix2 p k) * b (ix2 k q) := by
  simp only [Host.dotGeneral]
  rw [Ideal.dotGeneral_apply]
  exact plain_sum M K N a b p q

/-- A kernel's `tpu.matmul` over the plain contraction into the zero splat, at entry `(p, q)`: the same sum. -/
theorem matmul_plain_zero_apply (M K N : Nat) {φ₁ φ₂ : FTy} (prec : Option ContractPrecision)
    (a : FVec Ideal (⟨2, ![M, K]⟩ : Shape) φ₁) (b : FVec Ideal (⟨2, ![K, N]⟩ : Shape) φ₂) (p : Fin M) (q : Fin N) :
    matmul (DotDims.plain M K N) prec a b (constant (F := Ideal) (⟨2, ![M, N]⟩ : Shape) .f32 0x00000000#32) (ix2 p q)
      = ∑ k : Fin K, a (ix2 p k) * b (ix2 k q) := by
  simp only [matmul]
  rw [Ideal.matmul_constant_zero_apply]
  exact plain_sum M K N a b p q

end Cert.LibDense

end
-- ==== Proof.Spec.lean ====
import Mathlib.Data.EReal.Basic
import Mathlib.Algebra.BigOperators.Fin
import Idealize.ShloMosaic.Lib.ValueIdx

/-!
# One output entry of a linear layer with a low-rank correction, on the extended reals

For a row `x` of the activations, a row `w` of the dense weight, sixteen rows `a r` of the down projection, the
sixteen coefficients `b r` of the up projection that belong to the output column, and the column's bias `β`, the
entry is `x·w + β + Σ_r (x·a_r)·b_r`. The kernel reaches it by cutting each inner product over the 4096 features
into its two halves of 2048, starting every accumulator at zero, and adding the bias last; only the commutative
monoid laws of `+` relate the two arrangements, so no entry has to be finite.
-/

noncomputable section

open scoped BigOperators

namespace Cert.LowRank

/-- Feature `k` of the first half. -/
abbrev lo (k : Fin 2048) : Fin 4096 := ⟨k.val, by have := k.isLt; omega⟩
/-- Feature `k` of the second half. -/
abbrev hi (k : Fin 2048) : Fin 4096 := ⟨2048 + k.val, by have := k.isLt; omega⟩

/-- A sum over the 4096 features is the sum over the first half plus the sum over the second half. -/
theorem sum_halves {M : Type*} [AddCommMonoid M] (f : Fin 4096 → M) :
    ∑ k : Fin 4096, f k = ∑ k : Fin 2048, f (lo k) + ∑ k : Fin 2048, f (hi k) := by
  have h := Fin.sum_univ_add (M := M) (a := 2048) (b := 2048) (fun k : Fin (2048 + 2048) => f k)
  refine h.trans ?_
  congr 1

/-- The entry as the kernel accumulates it: both accumulators start at zero, take the first half, then the second;
    the low-rank term is added to the dense one, and the bias last. -/
def tiled (x w : Fin 4096 → EReal) (a : Fin 16 → Fin 4096 → EReal) (b : Fin 16 → EReal) (β : EReal) : EReal :=
  (((0 + ∑ k : Fin 2048, x (lo k) * w (lo k)) + ∑ k : Fin 2048, x (hi k) * w (hi k))
    + ∑ r : Fin 16, ((0 + ∑ k : Fin 2048, x (lo k) * a r (lo k)) + ∑ k : Fin 2048, x (hi k) * a r (hi k)) * b r) + β

/-- The entry as the reference states it: the dense inner product plus the bias, then the low-rank term. -/
def whole (x w : Fin 4096 → EReal) (a : Fin 16 → Fin 4096 → EReal) (b : Fin 16 → EReal) (β : EReal) : EReal :=
  (∑ k : Fin 4096, x k * w k + β) + ∑ r : Fin 16, (∑ k : Fin 4096, x k * a r k) * b r

/-- The two arrangements are one extended real. -/
theorem tiled_eq_whole (x w : Fin 4096 → EReal) (a : Fin 16 → Fin 4096 → EReal) (b : Fin 16 → EReal) (β : EReal) :
    tiled x w a b β = whole x w a b β := by
  unfold tiled whole
  rw [sum_halves (fun k => x k * w k)]
  simp only [sum_halves (fun k => x k * a _ k), zero_add]
  exact add_right_comm _ _ _

/-! ## The whole layer, index by index -/

open Idealize.ShloMosaic Idealize.ShloMosaic.ValueIdx

/-- The layer's output array over activations `x[b, s, ·]`, dense weight `W[o, ·]`, bias `β[o]`, down projection
    `A[r, ·]` and up projection `B[o, r]`: at `(b, s, o)` the entry of row `x[b, s, ·]` and output column `o`. -/
def layer (x : (⟨3, ![4, 2048, 4096]⟩ : Shape).Idx → EReal) (W : (⟨2, ![4096, 4096]⟩ : Shape).Idx → EReal)
    (β : (⟨1, ![4096]⟩ : Shape).Idx → EReal) (A : (⟨2, ![16, 4096]⟩ : Shape).Idx → EReal)
    (B : (⟨2, ![4096, 16]⟩ : Shape).Idx → EReal) : (⟨3, ![4, 2048, 4096]⟩ : Shape).Idx → EReal :=
  fun i => whole (fun k => x (ix3 (i 0) (i 1) k)) (fun k => W (ix2 (i 2) k)) (fun r k => A (ix2 r k))
    (fun r => B (ix2 (i 2) r)) (β (ix1 (i 2)))

theorem layer_apply (x : (⟨3, ![4, 2048, 4096]⟩ : Shape).Idx → EReal) (W : (⟨2, ![4096, 4096]⟩ : Shape).Idx → EReal)
    (β : (⟨1, ![4096]⟩ : Shape).Idx → EReal) (A : (⟨2, ![16, 4096]⟩ : Shape).Idx → EReal)
    (B : (⟨2, ![4096, 16]⟩ : Shape).Idx → EReal) (b : Fin 4) (s : Fin 2048) (o : Fin 4096) :
    layer x W β A B (ix3 b s o)
      = whole (fun k => x (ix3 b s k)) (fun k => W (ix2 o k)) (fun r k => A (ix2 r k)) (fun r => B (ix2 o r)) (β (ix1 o)) := rfl

end Cert.LowRank

end
-- ==== Proof.Entries.lean ====
import proofs.«112861_j63196148793993_1_alg».proof.Proof.Gen.KernelIdeal.Skeleton
import proofs.«112861_j63196148793993_1_alg».proof.Proof.LibContract
import proofs.«112861_j63196148793993_1_alg».proof.Proof.Spec
import Idealize.ShloMosaic.Lib.Pipeline.Value
import Idealize.ShloMosaic.Lib.ValueIdx

/-!
# The body's arithmetic at one entry, on the extended reals

Each of the body's stores, read at an entry of the block it writes: the zero blocks are `0`; an accumulator update
is the old entry plus the inner product of a row of the activation block with a column of the weight block (a
product into the zero splat is just that sum, and a change of float format is the identity); the output entry is
the dense accumulator plus the inner product of the low-rank accumulator's row with the up projection's column, plus
the bias row's entry.
-/

noncomputable section

namespace Cert.KernelIdeal.Entries

open Idealize.ShloMosaic Idealize.ShloMosaic.ValueIdx
open Cert.KernelIdeal Cert.KernelIdeal.Gen

theorem dense_dims : dot_S1024x2048_S2048x1024_S1024x1024_1_0_0_1_n_n = DotDims.plain 1024 2048 1024 := rfl
theorem down_dims : dot_S1024x2048_S2048x16_S1024x16_1_0_0_1_n_n = DotDims.plain 1024 2048 16 := rfl
theorem up_dims : dot_S1024x16_S16x1024_S1024x1024_1_0_0_1_n_n = DotDims.plain 1024 16 1024 := rfl

/-- The zero block of the dense accumulator. -/
theorem zero_dense (p q : Fin 1024) : k0_pay1 (F := Ideal) (ix2 p q) = 0 := by
  unfold k0_pay1
  rw [shapeCast_self]
  exact Ideal.ofBits_zero_f32

/-- The zero block of the low-rank accumulator. -/
theorem zero_lowrank (p : Fin 1024) (r : Fin 16) : k0_pay2 (F := Ideal) (ix2 p r) = 0 := by
  unfold k0_pay2
  rw [shapeCast_self]
  exact Ideal.ofBits_zero_f32

/-- The dense accumulator's update at `(p, q)`: the old entry plus row `p` of the activation block against column
    `q` of the dense weight block. -/
theorem dense_step (acc : Vec Ideal S1024x1024 .f32) (x : Vec Ideal S1024x2048 .bf16) (w : Vec Ideal S2048x1024 .bf16)
    (p q : Fin 1024) :
    k0_pay3 (F := Ideal) acc x w (ix2 p q) = acc (ix2 p q) + ∑ k : Fin 2048, x (ix2 p k) * w (ix2 k q) := by
  unfold k0_pay3
  rw [shapeCast_self, shapeCast_self, shapeCast_self, dense_dims]
  exact congrArg (acc (ix2 p q) + ·) (Cert.LibDense.matmul_plain_zero_apply 1024 2048 1024 none x w p q)

/-- The low-rank accumulator's update at `(p, r)`: the old entry plus row `p` of the activation block against
    column `r` of the down projection's block. -/
theorem lowrank_step (acc : Vec Ideal S1024x16 .f32) (x : Vec Ideal S1024x2048 .bf16) (a : Vec Ideal S2048x16 .bf16)
    (p : Fin 1024) (r : Fin 16) :
    k0_pay4 (F := Ideal) acc x a (ix2 p r) = acc (ix2 p r) + ∑ k : Fin 2048, x (ix2 p k) * a (ix2 k r) := by
  unfold k0_pay4
  rw [shapeCast_self, shapeCast_self, shapeCast_self, down_dims]
  exact congrArg (acc (ix2 p r) + ·) (Cert.LibDense.matmul_plain_zero_apply 1024 2048 16 none x a p r)

/-- The output entry at `(p, q)`: the dense accumulator, plus the low-rank accumulator's row `p` against column `q`
    of the up projection's block, plus the bias row at `q`. -/
theorem out_entry (lr : Vec Ideal S1024x16 .f32) (b : Vec Ideal S16x1024 .bf16) (acc : Vec Ideal S1024x1024 .f32)
    (bias : Vec Ideal S1x1024 .f32) (p q : Fin 1024) :
    k0_pay5 (F := Ideal) lr b acc bias (ix2 p q)
      = (acc (ix2 p q) + ∑ r : Fin 16, lr (ix2 p r) * b (ix2 r q)) + bias (ix2 (0 : Fin 1) q) := by
  unfold k0_pay5
  rw [shapeCast_self, shapeCast_self, up_dims]
  show (acc (ix2 p q) + matmul (DotDims.plain 1024 16 1024) none (truncf .bf16 lr bitsLt_bf16_f32) b
      (constant (F := Ideal) S1024x1024 .f32 0x00000000#32) (ix2 p q))
    + broadcastTo S1024x1024 bias broadcasts_S1x1024_S1024x1024 (ix2 p q) = _
  rw [Cert.LibDense.matmul_plain_zero_apply 1024 16 1024 none (truncf .bf16 lr bitsLt_bf16_f32) b p q,
    broadcastTo_apply bias broadcasts_S1x1024_S1024x1024 (ix2 p q) (ix2 (0 : Fin 1) q) (fun a => match a with
      | ⟨0, _⟩ => by show (0 : Nat) = if (1 : Nat) = 1 then 0 else _; rw [if_pos rfl]
      | ⟨1, _⟩ => by show q.val = if (1024 : Nat) = 1 then 0 else q.val; rw [if_neg (by decide)])]
  rfl

/-! ## The output entry from the blocks of the two halves -/

open Cert.LowRank (lo hi tiled)

/-- The output entry a second-half point writes, from the blocks of both halves: `xa, wa, aa` staged at the
    first-half point, `xb, wb, ab` at the second-half one. -/
theorem out_of_halves (xa xb : Vec Ideal S1024x2048 .bf16) (wa wb : Vec Ideal S2048x1024 .bf16)
    (aa ab : Vec Ideal S2048x16 .bf16) (bb : Vec Ideal S16x1024 .bf16) (bias : Vec Ideal S1x1024 .f32) (p q : Fin 1024) :
    k0_pay5 (F := Ideal) (k0_pay4 (k0_pay4 k0_pay2 xa aa) xb ab) bb (k0_pay3 (k0_pay3 k0_pay1 xa wa) xb wb) bias (ix2 p q)
      = (((0 + ∑ k : Fin 2048, xa (ix2 p k) * wa (ix2 k q)) + ∑ k : Fin 2048, xb (ix2 p k) * wb (ix2 k q))
          + ∑ r : Fin 16, ((0 + ∑ k : Fin 2048, xa (ix2 p k) * aa (ix2 k r)) + ∑ k : Fin 2048, xb (ix2 p k) * ab (ix2 k r))
              * bb (ix2 r q))
        + bias (ix2 (0 : Fin 1) q) := by
  rw [out_entry, dense_step, dense_step, zero_dense]
  simp only [lowrank_step, zero_lowrank]

/-- When the blocks are the two halves of row `R` of the activations `X`, of column `O` of the transposed dense
    weight `Wt`, of the transposed down projection `At`, and column `O` of the transposed up projection `Bt` and of the
    bias row, the entry is the tiled arrangement of that row and column. -/
theorem tiled_of_halves (X : S8192x4096.Idx → EReal) (Wt : S4096x4096.Idx → EReal) (At : S4096x16.Idx → EReal)
    (Bt : S16x4096.Idx → EReal) (β : S1x4096.Idx → EReal)
    (xa xb : Vec Ideal S1024x2048 .bf16) (wa wb : Vec Ideal S2048x1024 .bf16)
    (aa ab : Vec Ideal S2048x16 .bf16) (bb : Vec Ideal S16x1024 .bf16) (bias : Vec Ideal S1x1024 .f32) (p q : Fin 1024)
    (R : Fin 8192) (O : Fin 4096)
    (hxa : ∀ k, xa (ix2 p k) = X (ix2 R (lo k))) (hxb : ∀ k, xb (ix2 p k) = X (ix2 R (hi k)))
    (hwa : ∀ k, wa (ix2 k q) = Wt (ix2 (lo k) O)) (hwb : ∀ k, wb (ix2 k q) = Wt (ix2 (hi k) O))
    (haa : ∀ k r, aa (ix2 k r) = At (ix2 (lo k) r)) (hab : ∀ k r, ab (ix2 k r) = At (ix2 (hi k) r))
    (hbb : ∀ r, bb (ix2 r q) = Bt (ix2 r O)) (hbias : bias (ix2 (0 : Fin 1) q) = β (ix2 (0 : Fin 1) O)) :
    k0_pay5 (F := Ideal) (k0_pay4 (k0_pay4 k0_pay2 xa aa) xb ab) bb (k0_pay3 (k0_pay3 k0_pay1 xa wa) xb wb) bias (ix2 p q)
      = tiled (fun k => X (ix2 R k)) (fun k => Wt (ix2 k O)) (fun r k => At (ix2 k r)) (fun r => Bt (ix2 r O))
          (β (ix2 (0 : Fin 1) O)) := by
  rw [out_of_halves]
  unfold tiled
  simp only [hxa, hxb, hwa, hwb, haa, hab, hbb, hbias]

end Cert.KernelIdeal.Entries

end
-- ==== Proof.Staged.lean ====
import proofs.«112861_j63196148793993_1_alg».proof.Proof.Gen.KernelIdeal.Frame
import proofs.«112861_j63196148793993_1_alg».proof.Proof.Spec
import Idealize.ShloMosaic.Lib.Pipeline.Value
import Idealize.ShloMosaic.Lib.ValueIdx
import Idealize.ShloMosaic.Lib.ValueLayout
import Idealize.ShloMosaic.Lib.StableHlo.Run

/-!
# The arrays the region finds, and the blocks staged from them

Before the region the host lays the operands out for plain products: the activations flattened to 8192 rows, the
dense weight and the two projections transposed, the bias as one row (each change of float format is the identity on
the extended reals). At grid point `t` — row tile `t / 8`, column tile `t / 2 % 4`, half `t % 2` — each window's block
is read off its array at the block's offsets.
-/

noncomputable section

namespace Cert.KernelIdeal.Staged

open Idealize.ShloMosaic Idealize.ShloMosaic.TcCoe Idealize.SL.Sem Idealize.ShloMosaic.ValueIdx
open Cert.KernelIdeal Cert.KernelIdeal.Gen
open Cert.LowRank (lo hi)

variable (m : (ℓ : Loc nD τ sig) → Buf (Elt Ideal) ℓ)

/-! ## The arrays as the region finds them -/

/-- The activations, flattened. -/
abbrev xarr (c : Dev nD) : Vec Ideal S8192x4096 .bf16 := V m c main_v1
/-- The dense weight, transposed. -/
abbrev warr (c : Dev nD) : Vec Ideal S4096x4096 .bf16 := V m c main_v3
/-- The down projection, transposed. -/
abbrev aarr (c : Dev nD) : Vec Ideal S4096x16 .bf16 := V m c main_v5
/-- The up projection, transposed. -/
abbrev barr (c : Dev nD) : Vec Ideal S16x4096 .bf16 := V m c main_v7
/-- The bias, as one row. -/
abbrev biasarr (c : Dev nD) : Vec Ideal S1x4096 .f32 := V m c main_v8

/-- Row `b·2048 + s` of the flattened activations is `x[b, s, ·]`. -/
theorem xarr_apply (c : Dev nD) (b : Fin 4) (s : Fin 2048) (k : Fin 4096) (R : Fin 8192) (hR : R.val = b.val * 2048 + s.val) :
    xarr m c (ix2 R k) = m ((c : Thread nD τ).loc main_arg0) (ix3 b s k) := by
  have e : (V m c main_v1 : Vec Ideal S8192x4096 .bf16)
      = truncf (F := Ideal) .bf16 (shapeCast S8192x4096 (m ((c : Thread nD τ).loc main_arg0)) shapeCasts_S4x2048x4096_S8192x4096) bitsLt_bf16_f32 := by
    show StableHlo.after hostOps0 (fun b => m (c, b)) (Proc.devRef .tc main_v1) = _
    after_results <;> rfl
  show (V m c main_v1 : Vec Ideal S8192x4096 .bf16) (ix2 R k) = _
  rw [e]
  show shapeCast S8192x4096 (m ((c : Thread nD τ).loc main_arg0)) shapeCasts_S4x2048x4096_S8192x4096 (ix2 R k) = _
  exact shapeCast_apply (s := S4x2048x4096) (t := S8192x4096) _ _ (ix2 R k) (ix3 b s k) (by
    rw [Shape.rowMajor_val_three, Shape.rowMajor_val_two]
    show (b.val * 2048 + s.val) * 4096 + k.val = R.val * 4096 + k.val
    rw [hR])

/-- The transposed dense weight at `(k, o)` is `W[o, k]`. -/
theorem warr_apply (c : Dev nD) (k o : Fin 4096) :
    warr m c (ix2 k o) = m ((c : Thread nD τ).loc main_arg1) (ix2 o k) := by
  have e : (V m c main_v3 : Vec Ideal S4096x4096 .bf16)
      = truncf (F := Ideal) .bf16 (transpose S4096x4096 [1, 0] (m ((c : Thread nD τ).loc main_arg1)) transposes_S4096x4096_S4096x4096_1_0) bitsLt_bf16_f32 := by
    show StableHlo.after hostOps0 (fun b => m (c, b)) (Proc.devRef .tc main_v3) = _
    after_results <;> rfl
  show (V m c main_v3 : Vec Ideal S4096x4096 .bf16) (ix2 k o) = _
  rw [e]
  exact transpose_ix2_apply (m ((c : Thread nD τ).loc main_arg1)) transposes_S4096x4096_S4096x4096_1_0 k o

/-- The transposed down projection at `(k, r)` is `A[r, k]`. -/
theorem aarr_apply (c : Dev nD) (k : Fin 4096) (r : Fin 16) :
    aarr m c (ix2 k r) = m ((c : Thread nD τ).loc main_arg3) (ix2 r k) := by
  have e : (V m c main_v5 : Vec Ideal S4096x16 .bf16)
      = truncf (F := Ideal) .bf16 (transpose S4096x16 [1, 0] (m ((c : Thread nD τ).loc main_arg3)) transposes_S16x4096_S4096x16_1_0) bitsLt_bf16_f32 := by
    show StableHlo.after hostOps0 (fun b => m (c, b)) (Proc.devRef .tc main_v5) = _
    after_results <;> rfl
  show (V m c main_v5 : Vec Ideal S4096x16 .bf16) (ix2 k r) = _
  rw [e]
  exact transpose_ix2_apply (m ((c : Thread nD τ).loc main_arg3)) transposes_S16x4096_S4096x16_1_0 k r

/-- The transposed up projection at `(r, o)` is `B[o, r]`. -/
theorem barr_apply (c : Dev nD) (r : Fin 16) (o : Fin 4096) :
    barr m c (ix2 r o) = m ((c : Thread nD τ).loc main_arg4) (ix2 o r) := by
  have e : (V m c main_v7 : Vec Ideal S16x4096 .bf16)
      = truncf (F := Ideal) .bf16 (transpose S16x4096 [1, 0] (m ((c : Thread nD τ).loc main_arg4)) transposes_S4096x16_S16x4096_1_0) bitsLt_bf16_f32 := by
    show StableHlo.after hostOps0 (fun b => m (c, b)) (Proc.devRef .tc main_v7) = _
    after_results <;> rfl
  show (V m c main_v7 : Vec Ideal S16x4096 .bf16) (ix2 r o) = _
  rw [e]
  exact transpose_ix2_apply (m ((c : Thread nD τ).loc main_arg4)) transposes_S4096x16_S16x4096_1_0 r o

/-- The bias row at `(0, o)` is `β[o]`. -/
theorem biasarr_apply (c : Dev nD) (o : Fin 4096) :
    biasarr m c (ix2 (0 : Fin 1) o) = m ((c : Thread nD τ).loc main_arg2) (ix1 o) := by
  have e : (V m c main_v8 : Vec Ideal S1x4096 .f32)
      = shapeCast S1x4096 (m ((c : Thread nD τ).loc main_arg2)) shapeCasts_S4096_S1x4096 := by
    show StableHlo.after hostOps0 (fun b => m (c, b)) (Proc.devRef .tc main_v8) = _
    after_results <;> rfl
  show (V m c main_v8 : Vec Ideal S1x4096 .f32) (ix2 (0 : Fin 1) o) = _
  rw [e]
  exact shapeCast_apply (s := S4096) (t := S1x4096) _ _ (ix2 (0 : Fin 1) o) (ix1 o) (by
    rw [Shape.rowMajor_val_one, Shape.rowMajor_val_two]
    show o.val = 0 * 4096 + o.val
    omega)

/-! ## The blocks at a grid point -/

/-- Which block each window is on at point `t`: the activations on (row tile, half), the dense weight on (half,
    column tile), the down projection on (half, 0), the up projection, the bias and the output on the column tile. -/
theorem block_index : ∀ t : Fin cfg0.N,
    win0_0.index t (0 : Fin 2) = t.val / 8 ∧ win0_0.index t (1 : Fin 2) = t.val % 2
    ∧ win0_1.index t (0 : Fin 2) = t.val % 2 ∧ win0_1.index t (1 : Fin 2) = t.val / 2 % 4
    ∧ win0_2.index t (0 : Fin 2) = t.val % 2 ∧ win0_2.index t (1 : Fin 2) = 0
    ∧ win0_3.index t (0 : Fin 2) = 0 ∧ win0_3.index t (1 : Fin 2) = t.val / 2 % 4
    ∧ win0_4.index t (0 : Fin 2) = 0 ∧ win0_4.index t (1 : Fin 2) = t.val / 2 % 4
    ∧ win0_5.index t (0 : Fin 2) = t.val / 8 ∧ win0_5.index t (1 : Fin 2) = t.val / 2 % 4 :=
  (by decide +kernel : ∀ t : Fin grid0.N, _)

/-- The activation block at `t`, entry `(p, k)`: the flattened activations at row `(t/8)·1024 + p`, feature
    `(t%2)·2048 + k`. -/
theorem xblk_apply (c : Dev nD) (t : Fin cfg0.N) (p : Fin 1024) (k : Fin 2048) (R : Fin 8192) (K : Fin 4096)
    (hR : R.val = t.val / 8 * 1024 + p.val) (hK : K.val = t.val % 2 * 2048 + k.val) :
    (iblk m c 0 t : Vec Ideal S1024x2048 .bf16) (ix2 p k) = xarr m c (ix2 R K) := by
  obtain ⟨e0, e1, -⟩ := block_index t
  show V m c main_v1 (((cfg0.win 0).blk t).view.emb (ix2 p k)) = V m c main_v1 (ix2 R K)
  refine congrArg _ (funext fun a => Fin.ext ?_)
  match a with
  | ⟨0, _⟩ => show win0_0.index t (0 : Fin 2) * 1024 + 1 * p.val = R.val; omega
  | ⟨1, _⟩ => show win0_0.index t (1 : Fin 2) * 2048 + 1 * k.val = K.val; omega

/-- The dense weight block at `t`, entry `(k, q)`. -/
theorem wblk_apply (c : Dev nD) (t : Fin cfg0.N) (k : Fin 2048) (q : Fin 1024) (K O : Fin 4096)
    (hK : K.val = t.val % 2 * 2048 + k.val) (hO : O.val = t.val / 2 % 4 * 1024 + q.val) :
    (iblk m c 1 t : Vec Ideal S2048x1024 .bf16) (ix2 k q) = warr m c (ix2 K O) := by
  obtain ⟨-, -, e0, e1, -⟩ := block_index t
  show V m c main_v3 (((cfg0.win 1).blk t).view.emb (ix2 k q)) = V m c main_v3 (ix2 K O)
  refine congrArg _ (funext fun a => Fin.ext ?_)
  match a with
  | ⟨0, _⟩ => show win0_1.index t (0 : Fin 2) * 2048 + 1 * k.val = K.val; omega
  | ⟨1, _⟩ => show win0_1.index t (1 : Fin 2) * 1024 + 1 * q.val = O.val; omega

/-- The down projection's block at `t`, entry `(k, r)`. -/
theorem ablk_apply (c : Dev nD) (t : Fin cfg0.N) (k : Fin 2048) (r : Fin 16) (K : Fin 4096)
    (hK : K.val = t.val % 2 * 2048 + k.val) :
    (iblk m c 2 t : Vec Ideal S2048x16 .bf16) (ix2 k r) = aarr m c (ix2 K r) := by
  obtain ⟨-, -, -, -, e0, e1, -⟩ := block_index t
  show V m c main_v5 (((cfg0.win 2).blk t).view.emb (ix2 k r)) = V m c main_v5 (ix2 K r)
  refine congrArg _ (funext fun a => Fin.ext ?_)
  match a with
  | ⟨0, _⟩ => show win0_2.index t (0 : Fin 2) * 2048 + 1 * k.val = K.val; omega
  | ⟨1, _⟩ => show win0_2.index t (1 : Fin 2) * 16 + 1 * r.val = r.val; omega

/-- The up projection's block at `t`, entry `(r, q)`. -/
theorem bblk_apply (c : Dev nD) (t : Fin cfg0.N) (r : Fin 16) (q : Fin 1024) (O : Fin 4096)
    (hO : O.val = t.val / 2 % 4 * 1024 + q.val) :
    (iblk m c 3 t : Vec Ideal S16x1024 .bf16) (ix2 r q) = barr m c (ix2 r O) := by
  obtain ⟨-, -, -, -, -, -, e0, e1, -⟩ := block_index t
  show V m c main_v7 (((cfg0.win 3).blk t).view.emb (ix2 r q)) = V m c main_v7 (ix2 r O)
  refine congrArg _ (funext fun a => Fin.ext ?_)
  match a with
  | ⟨0, _⟩ => show win0_3.index t (0 : Fin 2) * 16 + 1 * r.val = r.val; omega
  | ⟨1, _⟩ => show win0_3.index t (1 : Fin 2) * 1024 + 1 * q.val = O.val; omega

/-- The bias row's block at `t`, entry `(0, q)`. -/
theorem biasblk_apply (c : Dev nD) (t : Fin cfg0.N) (q : Fin 1024) (O : Fin 4096)
    (hO : O.val = t.val / 2 % 4 * 1024 + q.val) :
    (iblk m c 4 t : Vec Ideal S1x1024 .f32) (ix2 (0 : Fin 1) q) = biasarr m c (ix2 (0 : Fin 1) O) := by
  obtain ⟨-, -, -, -, -, -, -, -, e0, e1, -⟩ := block_index t
  show V m c main_v8 (((cfg0.win 4).blk t).view.emb (ix2 (0 : Fin 1) q)) = V m c main_v8 (ix2 (0 : Fin 1) O)
  refine congrArg _ (funext fun a => Fin.ext ?_)
  match a with
  | ⟨0, _⟩ => show win0_4.index t (0 : Fin 2) * 1 + 1 * 0 = 0; omega
  | ⟨1, _⟩ => show win0_4.index t (1 : Fin 2) * 1024 + 1 * q.val = O.val; omega

end Cert.KernelIdeal.Staged

end
-- ==== Proof.Result.lean ====
import proofs.«112861_j63196148793993_1_alg».proof.Proof.Steps
import proofs.«112861_j63196148793993_1_alg».proof.Proof.Entries
import proofs.«112861_j63196148793993_1_alg».proof.Proof.Staged

/-!
# The kernel's result array

Only second-half points write the output back, and the point of row tile `I`, column tile `J` writes block `(I, J)`
of the flattened result; its entry `(p, q)` is the tiled arrangement of row `I·1024 + p` of the flattened activations
against column `J·1024 + q`, which is the layer's entry there. The 32 blocks tile the 8192 × 4096 array, so the
region leaves the flattened layer output, and the host's final reshape gives it back its three axes.
-/

noncomputable section

namespace Cert.KernelIdeal.Result

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Steps Cert.KernelIdeal.Staged
open Cert.LowRank (lo hi tiled whole layer)

variable (m : (ℓ : Loc nD τ sig) → Buf (Elt Ideal) ℓ) (ρ : Dev nD → PrngReg)

/-- The point before: for a second-half point, the first-half point of the same row and column tiles. -/
abbrev prev (t : Fin cfg0.N) : Fin cfg0.N := ⟨t.val - 1, Nat.lt_of_le_of_lt (Nat.sub_le _ _) t.isLt⟩

/-- The layer's output over the arguments as launched. -/
abbrev out (c : Dev nD) : Vec Ideal S4x2048x4096 .f32 :=
  layer (m ((c : Thread nD τ).loc main_arg0)) (m ((c : Thread nD τ).loc main_arg1)) (m ((c : Thread nD τ).loc main_arg2))
    (m ((c : Thread nD τ).loc main_arg3)) (m ((c : Thread nD τ).loc main_arg4))

/-- The same flattened to 8192 rows: what the region leaves in its result array. -/
def flat (c : Dev nD) : Vec Ideal S8192x4096 .f32 :=
  shapeCast S8192x4096 (out m c) shapeCasts_S4x2048x4096_S8192x4096

/-- Row `b·2048 + s` of the flattened output is the layer's row `(b, s)`. -/
theorem flat_apply (c : Dev nD) (b : Fin 4) (s : Fin 2048) (O : Fin 4096) (R : Fin 8192) (hR : R.val = b.val * 2048 + s.val) :
    flat m c (ix2 R O) = out m c (ix3 b s O) := by
  unfold flat
  exact shapeCast_apply (s := S4x2048x4096) (t := S8192x4096) _ _ (ix2 R O) (ix3 b s O) (by
    rw [Shape.rowMajor_val_three, Shape.rowMajor_val_two]
    show (b.val * 2048 + s.val) * 4096 + O.val = R.val * 4096 + O.val
    rw [hR])

/-- The tiled arrangement over the arrays the region finds is the flattened layer output. -/
theorem tiled_staged (c : Dev nD) (R : Fin 8192) (O : Fin 4096) :
    tiled (fun k => xarr m c (ix2 R k)) (fun k => warr m c (ix2 k O)) (fun r k => aarr m c (ix2 k r))
        (fun r => barr m c (ix2 r O)) (biasarr m c (ix2 (0 : Fin 1) O))
      = flat m c (ix2 R O) := by
  have hR : R.val = (⟨R.val / 2048, by have := R.isLt; omega⟩ : Fin 4).val * 2048
      + (⟨R.val % 2048, Nat.mod_lt _ (by decide)⟩ : Fin 2048).val := by
    show R.val = R.val / 2048 * 2048 + R.val % 2048
    omega
  rw [flat_apply m c _ _ O R hR]
  show _ = whole _ _ _ _ _
  rw [← Cert.LowRank.tiled_eq_whole]
  have hx : (fun k => xarr m c (ix2 R k)) = fun k => m ((c : Thread nD τ).loc main_arg0) (ix3 _ _ k) :=
    funext fun k => xarr_apply m c _ _ k R hR
  have hw : (fun k => warr m c (ix2 k O)) = fun k => m ((c : Thread nD τ).loc main_arg1) (ix2 O k) :=
    funext fun k => warr_apply m c k O
  have ha : (fun (r : Fin 16) (k : Fin 4096) => aarr m c (ix2 k r)) = fun r k => m ((c : Thread nD τ).loc main_arg3) (ix2 r k) :=
    funext fun r => funext fun k => aarr_apply m c k r
  have hb : (fun r => barr m c (ix2 r O)) = fun r => m ((c : Thread nD τ).loc main_arg4) (ix2 O r) :=
    funext fun r => barr_apply m c r O
  rw [hx, hw, ha, hb, biasarr_apply m c O]

/-- The output entry `(p, q)` a second-half point `t` writes is the flattened layer output at row `(t/8)·1024 + p`,
    column `(t/2 % 4)·1024 + q`. -/
theorem entry_at_second (c : Dev nD) (t : Fin cfg0.N) (h1 : t.val % 2 = 1) (p q : Fin 1024) (R : Fin 8192) (O : Fin 4096)
    (hR : R.val = t.val / 8 * 1024 + p.val) (hO : O.val = t.val / 2 % 4 * 1024 + q.val) :
    (outsAt0 m c t.val t.isLt).1 (ix2 p q) = flat m c (ix2 R O) := by
  have hp0 : (prev t).val % 2 = 0 := by show (t.val - 1) % 2 = 0; omega
  have e0 : (outsAt0 m c (t.val - 1) (Nat.lt_of_le_of_lt (Nat.sub_le _ _) t.isLt)).2.1
      = k0_pay3 (k0_pay1 (F := Ideal)) (xblk m c (prev t)) (wblk m c (prev t)) := dense_at_first m c (prev t) hp0
  have e1 : (outsAt0 m c (t.val - 1) (Nat.lt_of_le_of_lt (Nat.sub_le _ _) t.isLt)).2.2
      = k0_pay4 (k0_pay2 (F := Ideal)) (xblk m c (prev t)) (ablk m c (prev t)) := lowrank_at_first m c (prev t) hp0
  rw [out_at_second_step m c t h1, e0, e1, ← tiled_staged m c R O]
  exact Cert.KernelIdeal.Entries.tiled_of_halves (xarr m c) (warr m c) (aarr m c) (barr m c) (biasarr m c)
    (xblk m c (prev t)) (xblk m c t) (wblk m c (prev t)) (wblk m c t) (ablk m c (prev t)) (ablk m c t) (bblk m c t)
    (biasblk m c t) p q R O
    (fun k => xblk_apply m c (prev t) p k R (lo k) (by show R.val = (t.val - 1) / 8 * 1024 + p.val; omega)
      (by show k.val = (t.val - 1) % 2 * 2048 + k.val; omega))
    (fun k => xblk_apply m c t p k R (hi k) hR (by show 2048 + k.val = t.val % 2 * 2048 + k.val; omega))
    (fun k => wblk_apply m c (prev t) k q (lo k) O (by show k.val = (t.val - 1) % 2 * 2048 + k.val; omega)
      (by show O.val = (t.val - 1) / 2 % 4 * 1024 + q.val; omega))
    (fun k => wblk_apply m c t k q (hi k) O (by show 2048 + k.val = t.val % 2 * 2048 + k.val; omega) hO)
    (fun k r => ablk_apply m c (prev t) k r (lo k) (by show k.val = (t.val - 1) % 2 * 2048 + k.val; omega))
    (fun k r => ablk_apply m c t k r (hi k) (by show 2048 + k.val = t.val % 2 * 2048 + k.val; omega))
    (fun r => bblk_apply m c t r q O hO)
    (biasblk_apply m c t q O hO)

/-- What a write-back writes is its block of the flattened layer output. -/
theorem flushed_eq (c : Dev nD) (t : Fin cfg0.N) (hf : (cfg0.win 5).flush t = true) :
    (dats m 0 c).flushed 5 t = ((cfg0.win 5).blk t).view.read (Elt Ideal) (flat m c) := by
  have h1 : t.val % 2 = 1 := (flush0_5 t).mp hf
  have hN : t.val < 64 := lt_of_lt_of_eq t.isLt (show cfg0.N = 64 from N_0)
  obtain ⟨-, -, -, -, -, -, -, -, -, -, e0, e1⟩ := block_index t
  show (cfg0.win 5).cut (grid0.coords t) ((dats m 0 c).after 5 t) = _
  rw [after0_5]
  funext y
  obtain ⟨p, q, rfl⟩ : ∃ (p q : Fin 1024), y = ix2 p q := ⟨y 0, y 1, eq_ix2 y⟩
  show (outsAt0 m c t.val t.isLt).1 (ix2 p q) = flat m c (((cfg0.win 5).blk t).view.emb (ix2 p q))
  have hemb : ((cfg0.win 5).blk t).view.emb (ix2 p q)
      = ix2 (⟨t.val / 8 * 1024 + p.val, by have := p.isLt; omega⟩ : Fin 8192)
          (⟨t.val / 2 % 4 * 1024 + q.val, by have := q.isLt; omega⟩ : Fin 4096) := by
    funext a; apply Fin.ext
    match a with
    | ⟨0, _⟩ => show win0_5.index t (0 : Fin 2) * 1024 + 1 * p.val = t.val / 8 * 1024 + p.val; omega
    | ⟨1, _⟩ => show win0_5.index t (1 : Fin 2) * 1024 + 1 * q.val = t.val / 2 % 4 * 1024 + q.val; omega
  rw [hemb]
  exact entry_at_second m c t h1 p q _ _ rfl rfl

/-- An index of the result array is in point `t`'s block iff each coordinate is in the block's range. -/
theorem mem_blk (t : Fin cfg0.N) (i : S8192x4096.Idx) :
    i ∈ ((cfg0.win 5).blk t).view.set ↔ ∀ a : Fin 2, win0_5.index t a * S1024x1024.size a ≤ (i a).val
      ∧ (i a).val < win0_5.index t a * S1024x1024.size a + S1024x1024.size a := by
  show i ∈ ((View.whole main_v9).slice (win0_5.rect t)).set ↔ _
  rw [View.set_slice_whole, Rect.mem_set_unit]
  exact Iff.rfl

/-- Every index of the result array lies in the block some second-half point writes back. -/
theorem covered (i : S8192x4096.Idx) :
    ∃ t : Fin cfg0.N, (cfg0.win 5).flush t = true ∧ i ∈ ((cfg0.win 5).blk t).view.set := by
  have hi0 : (i 0).val < 8192 := (i 0).isLt
  have hi1 : (i 1).val < 4096 := (i 1).isLt
  obtain ⟨t, ht⟩ : ∃ t : Fin cfg0.N, t.val = (i 0).val / 1024 * 8 + (i 1).val / 1024 * 2 + 1 :=
    ⟨⟨(i 0).val / 1024 * 8 + (i 1).val / 1024 * 2 + 1, by rw [show cfg0.N = 64 from N_0]; omega⟩, rfl⟩
  obtain ⟨-, -, -, -, -, -, -, -, -, -, e0, e1⟩ := block_index t
  refine ⟨t, (flush0_5 t).mpr (by omega), ?_⟩
  rw [mem_blk]
  intro a
  match a with
  | ⟨0, _⟩ =>
    show win0_5.index t (0 : Fin 2) * 1024 ≤ (i 0).val ∧ (i 0).val < win0_5.index t (0 : Fin 2) * 1024 + 1024
    omega
  | ⟨1, _⟩ =>
    show win0_5.index t (1 : Fin 2) * 1024 ≤ (i 1).val ∧ (i 1).val < win0_5.index t (1 : Fin 2) * 1024 + 1024
    omega

/-- The region leaves the flattened layer output in its result array. -/
theorem final (c : Dev nD) : (dats m 0 c).arrAt 5 cfg0.N = flat m c :=
  (dats m 0 c).arrAt_eq_of_cover 5 (flat m c) (flushed_eq m c) covered

/-- The host's last line reshapes it to the layer's three axes. -/
theorem tail_eq (c : Dev nD) :
    Pipeline.afterTail₀ cfgs (dats m) 0 (V0 m) [hostOps1] c main_v10 = out m c := by
  unfold Pipeline.afterTail₀
  show StableHlo.after hostOps1 _ (Proc.devRef .tc main_v10) = _
  after_results
  have e : Pipeline.withArrays (cfgs 0).spec c (V0 m c) (fun w => (dats m 0 c).arrAt w (cfgs 0).N) (Proc.devRef .tc main_v9)
      = flat m c :=
    (Pipeline.withArrays_arr spec0 launch0.win.arr_inj c (V0 m c) (fun w => (dats m 0 c).arrAt w cfg0.N) 5).trans (final m c)
  show (fun i => shapeCast S4x2048x4096 (Pipeline.withArrays (cfgs 0).spec c (V0 m c)
      (fun w => (dats m 0 c).arrAt w (cfgs 0).N) (Proc.devRef .tc main_v9)) shapeCasts_S8192x4096_S4x2048x4096 i) = _
  rw [e]
  exact shapeCast_shapeCast (out m c) shapeCasts_S4x2048x4096_S8192x4096 shapeCasts_S8192x4096_S4x2048x4096

/-- The run, read: the result at the layer's output of the arguments, the arguments unchanged. -/
theorem run : θ_run defs (onTc (τ := τ) (main (F := Ideal))) ⟨m, fun _ => 0, ρ⟩ fun r => ∀ c : Dev nD,
      r.2.mem ((c.tc : Thread nD τ).loc main_v10) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v10 (Pipeline.mem_restRefs_of main_v10 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Result

end
-- ==== Proof.RefValue.lean ====
import proofs.«112861_j63196148793993_1_alg».proof.Proof.Gen.ReferenceIdeal.Read
import proofs.«112861_j63196148793993_1_alg».proof.Proof.Spec

/-!
# The reference computes the layer

Operation by operation at an index: the dense contraction plus the broadcast bias, plus the contraction of the
low-rank activations `x·Aᵀ` with the up projection — which is the layer's entry as the specification states it.
-/

noncomputable section

namespace Cert.ReferenceIdeal.RefValue

open Idealize.ShloMosaic Idealize.ShloMosaic.ValueIdx
open Cert.ReferenceIdeal Cert.ReferenceIdeal.Read
open Cert.LowRank (whole layer layer_apply)

/-- The reference's result, as a function of its five arguments, is the layer's output array. -/
theorem ref_eq_layer (x : (⟨S4x2048x4096, .f32⟩ : BufTy).Contents (Elt Ideal)) (W : (⟨S4096x4096, .f32⟩ : BufTy).Contents (Elt Ideal))
    (β : (⟨S4096, .f32⟩ : BufTy).Contents (Elt Ideal)) (A : (⟨S16x4096, .f32⟩ : BufTy).Contents (Elt Ideal))
    (B : (⟨S4096x16, .f32⟩ : BufTy).Contents (Elt Ideal)) :
    val_main_v6 (F := Ideal) x W β A B = layer x W β A B := by
  funext i
  obtain ⟨b, s, o, rfl⟩ : ∃ (b : Fin 4) (s : Fin 2048) (o : Fin 4096), i = ix3 b s o := ⟨i 0, i 1, i 2, eq_ix3 i⟩
  have l0 : ∀ k, lidx_main_v0 (ix3 b s o) k = ix3 b s k := fun k =>
    funext fun a => match a with | ⟨0, _⟩ => rfl | ⟨1, _⟩ => rfl | ⟨2, _⟩ => rfl
  have r0 : ∀ k, ridx_main_v0 (ix3 b s o) k = ix2 o k := fun k =>
    funext fun a => match a with | ⟨0, _⟩ => rfl | ⟨1, _⟩ => rfl
  have i12 : idx_main_v1 (idx_main_v2 (ix3 b s o)) = ix1 o :=
    funext fun a => match a with | ⟨0, _⟩ => rfl
  have l5 : ∀ r, lidx_main_v5 (ix3 b s o) r = ix3 b s r := fun r =>
    funext fun a => match a with | ⟨0, _⟩ => rfl | ⟨1, _⟩ => rfl | ⟨2, _⟩ => rfl
  have r5 : ∀ r, ridx_main_v5 (ix3 b s o) r = ix2 o r := fun r =>
    funext fun a => match a with | ⟨0, _⟩ => rfl | ⟨1, _⟩ => rfl
  have l4 : ∀ (r : Fin 16) k, lidx_main_v4 (ix3 b s r) k = ix3 b s k := fun r k =>
    funext fun a => match a with | ⟨0, _⟩ => rfl | ⟨1, _⟩ => rfl | ⟨2, _⟩ => rfl
  have r4 : ∀ (r : Fin 16) k, ridx_main_v4 (ix3 b s r) k = ix2 r k := fun r k =>
    funext fun a => match a with | ⟨0, _⟩ => rfl | ⟨1, _⟩ => rfl
  rw [layer_apply, val_main_v6_apply, val_main_v3_apply, val_main_v0_apply, val_main_v2_apply, val_main_v1_apply,
    val_main_v5_apply]
  unfold whole
  simp only [val_main_v4_apply, l0, r0, i12, l5, r5, l4, r4, Ideal.addf_def]

end Cert.ReferenceIdeal.RefValue

end
-- ==== Proof.lean ====
/- The proof of `Cert.Claim`: a linear layer with a low-rank correction, `x·Wᵀ + β + (x·Aᵀ)·Bᵀ`, computed by one
   kernel over a grid of (row tile, column tile, half of the feature axis) against the reference's three
   contractions and two additions.
   On the extended reals both programs compute, at every `(b, s, o)`, the same entry: the kernel cuts each inner
   product over the 4096 features into two halves of 2048, starts its two accumulators at zero, adds the low-rank
   term before the bias where the reference adds it after, and changes float formats, which is the identity there;
   the two arrangements differ by the commutative-monoid laws of `+` alone (Proof/Spec.lean), so the inputs'
   finiteness is never used.
   The kernel's side: what a grid point leaves in the accumulators and the output block (Proof/Steps.lean), that
   arithmetic at one entry (Proof/Entries.lean), the arrays the host lines prepare and the blocks staged from them
   (Proof/Staged.lean), and the result array block by block, then through the host's final reshape
   (Proof/Result.lean). The reference's side: its run read operation by operation (Proof/RefValue.lean).
   The three frames are the kernel programs' frame theorems and the reference's run with its result dropped; the
   ideal pass rewrote nothing, so `preserves` is `True`. -/
import proofs.«112861_j63196148793993_1_alg».proof.Defs
import proofs.«112861_j63196148793993_1_alg».proof.Proof.Gen.Kernel
import proofs.«112861_j63196148793993_1_alg».proof.Proof.Gen.Kernel.Skeleton
import proofs.«112861_j63196148793993_1_alg».proof.Proof.Gen.Kernel.Launch
import proofs.«112861_j63196148793993_1_alg».proof.Proof.Gen.Kernel.Points
import proofs.«112861_j63196148793993_1_alg».proof.Proof.Gen.Kernel.Frame
import proofs.«112861_j63196148793993_1_alg».proof.Proof.Gen.KernelIdeal
import proofs.«112861_j63196148793993_1_alg».proof.Proof.Gen.KernelIdeal.Skeleton
import proofs.«112861_j63196148793993_1_alg».proof.Proof.Gen.KernelIdeal.Launch
import proofs.«112861_j63196148793993_1_alg».proof.Proof.Gen.KernelIdeal.Points
import proofs.«112861_j63196148793993_1_alg».proof.Proof.Gen.KernelIdeal.Frame
import proofs.«112861_j63196148793993_1_alg».proof.Proof.Gen.ReferenceIdeal
import proofs.«112861_j63196148793993_1_alg».proof.Proof.Gen.Pre_finite_inputs
import proofs.«112861_j63196148793993_1_alg».proof.Proof.Gen.ReferenceIdeal.Read
import proofs.«112861_j63196148793993_1_alg».proof.Proof.Result
import proofs.«112861_j63196148793993_1_alg».proof.Proof.RefValue
import Idealize.ShloMosaic.Adequacy
import Idealize.ShloMosaic.Init

noncomputable section

namespace Cert.Proof

open Idealize.ShloMosaic Idealize.SL.Sem Cert.Kernel

/-- The word-level kernel runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference's run, its result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the five arguments both programs end with the layer's output array. -/
theorem algebraic : Cert.algebraic_KernelIdeal_ReferenceIdeal := by
  intro m ρ m' ρ' _ hagree
  refine ⟨fun c => Cert.KernelIdeal.Result.out m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefValue.ref_eq_layer, (hagree c).1, (hagree c).2.1,
    (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
